-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128 .f32) (main_arg6 : FVec F S128x128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S10000x128 : Shape := ⟨2, ![10000, 128]⟩
abbrev S650000x128 : Shape := ⟨2, ![650000, 128]⟩

abbrev nBuf : Space → Nat
  | .hbm => 99
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000, .f32⟩
  | .hbm, ⟨51, _⟩ => ⟨S650000, .f32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S650000, .i32⟩
  | .hbm, ⟨58, _⟩ => ⟨S650000, .i1⟩
  | .hbm, ⟨59, _⟩ => ⟨S_, .i32⟩
  | .hbm, ⟨60, _⟩ => ⟨S650000, .i32⟩
  | .hbm, ⟨61, _⟩ => ⟨S650000, .i32⟩
  | .hbm, ⟨62, _⟩ => ⟨S650000, .i32⟩
  | .hbm, ⟨63, _⟩ => ⟨S650000x1, .i32⟩
  | .hbm, ⟨64, _⟩ => ⟨S650000x128, .f32⟩
  | .hbm, ⟨65, _⟩ => ⟨S650000x1, .f32⟩
  | .hbm, ⟨66, _⟩ => ⟨S650000x128, .f32⟩
  | .hbm, ⟨67, _⟩ => ⟨S650000x128, .f32⟩
  | .hbm, ⟨68, _⟩ => ⟨S_, .f32⟩
  | .hbm, ⟨69, _⟩ => ⟨S50000x128, .f32⟩
  | .hbm, ⟨70, _⟩ => ⟨S650000x1, .i32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S_, .i32⟩
  | .hbm, ⟨81, _⟩ => ⟨S650000, .i32⟩
  | .hbm, ⟨82, _⟩ => ⟨S650000, .i1⟩
  | .hbm, ⟨83, _⟩ => ⟨S_, .i32⟩
  | .hbm, ⟨84, _⟩ => ⟨S650000, .i32⟩
  | .hbm, ⟨85, _⟩ => ⟨S650000, .i32⟩
  | .hbm, ⟨86, _⟩ => ⟨S650000, .i32⟩
  | .hbm, ⟨87, _⟩ => ⟨S650000x1, .i32⟩
  | .hbm, ⟨88, _⟩ => ⟨S650000x128, .f32⟩
  | .hbm, ⟨89, _⟩ => ⟨S650000x1, .f32⟩
  | .hbm, ⟨90, _⟩ => ⟨S650000x128, .f32⟩
  | .hbm, ⟨91, _⟩ => ⟨S650000x128, .f32⟩
  | .hbm, ⟨92, _⟩ => ⟨S_, .f32⟩
  | .hbm, ⟨93, _⟩ => ⟨S50000x128, .f32⟩
  | .hbm, ⟨94, _⟩ => ⟨S650000x1, .i32⟩
  | .hbm, ⟨95, _⟩ => ⟨S50000x128, .f32⟩
  | .hbm, ⟨96, _⟩ => ⟨S1x128, .f32⟩
  | .hbm, ⟨97, _⟩ => ⟨S1x128, .f32⟩
  | .hbm, ⟨98, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S_S128 : S_.BroadcastsInDim S128 (![] : Fin 0 → Fin S128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S10000x128_S10000x128 : S10000x128.ShapeCasts S10000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S10000x128_S128x128_S10000x128_1_0_0_1_n_n_wf : DotDims.WF S10000x128 S128x128 S10000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .f32 = 32 ∨ (Rect.block (s := S50000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S50000x128.size a
  hwx4_3 : ∀ i : grid4.Coords, EltTy.bits .f32 = 32 ∨ (Rect.block (s := S50000x128) S10000x128.size (cc4_transform_3 i) (hinb4_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000, .f32⟩
  | .hbm, ⟨51, _⟩ => ⟨S650000, .f32⟩
  | .hbm, ⟨52, _⟩ => ⟨S50000x128, .f32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S650000x1, .i32⟩
  | .hbm, ⟨61, _⟩ => ⟨S650000x128, .f32⟩
  | .hbm, ⟨62, _⟩ => ⟨S650000x1, .f32⟩
  | .hbm, ⟨63, _⟩ => ⟨S650000x128, .f32⟩
  | .hbm, ⟨64, _⟩ => ⟨S650000x128, .f32⟩
  | .hbm, ⟨65, _⟩ => ⟨S_, .f32⟩
  | .hbm, ⟨66, _⟩ => ⟨S50000x128, .f32⟩
  | .hbm, ⟨67, _⟩ => ⟨S650000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .i1⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S650000, .i32⟩
  | .hbm, ⟨90, _⟩ => ⟨S650000, .i1⟩
  | .hbm, ⟨91, _⟩ => ⟨S_, .i32⟩
  | .hbm, ⟨92, _⟩ => ⟨S650000, .i32⟩
  | .hbm, ⟨93, _⟩ => ⟨S650000, .i32⟩
  | .hbm, ⟨94, _⟩ => ⟨S650000, .i32⟩
  | .hbm, ⟨95, _⟩ => ⟨S650000x1, .i32⟩
  | .hbm, ⟨96, _⟩ => ⟨S650000x128, .f32⟩
  | .hbm, ⟨97, _⟩ => ⟨S650000x1, .f32⟩
  | .hbm, ⟨98, _⟩ => ⟨S650000x128, .f32⟩
  | .hbm, ⟨99, _⟩ => ⟨S650000x128, .f32⟩
  | .hbm, ⟨100, _⟩ => ⟨S_, .f32⟩
  | .hbm, ⟨101, _⟩ => ⟨S50000x128, .f32⟩
  | .hbm, ⟨102, _⟩ => ⟨S650000x1, .i32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x128, .f32⟩
  | .hbm, ⟨109, _⟩ => ⟨S50000x128, .i1⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.GcnStages.lean ====
/-
  The two-layer graph convolution, stage by stage, as functions of whole arrays over the extended reals.

  A layer is: a linear map of the node features (a matrix product with a [128,128] weight, plus a per-channel
  row), a normalised neighbour aggregation (a gather along the edge list, a scale by the edge's normalisation,
  a scatter-add into the destination nodes), a per-channel bias, and a channel-wise PReLU
  (v ↦ v if v ≥ 0, else a·v). Here: `lin` (the linear map with its row) and `prelu` (bias, then PReLU), written
  with the reference program's own operations so that the reference's stages ARE these functions, and read at an
  index (node n, channel ch) as the plain formulas a tile of the kernel computes:
    lin X W b (n, ch)   = Σ_k X(n,k)·W(k,ch) + b(ch)
    prelu Z b a (n, ch) = select (Z(n,ch)+b(ch) ≥ 0) (Z(n,ch)+b(ch)) (a(ch)·(Z(n,ch)+b(ch))).
  Adding a zero row, and adding to the zero array, change nothing on the extended reals (x + 0 = x and 0 + x = x
  hold at ±∞ too), which is all the algebra the two programs differ by.
-/
import proofs.«120138_j45913200394643_1_alg».proof.Proof.RefRead
import Idealize.ShloMosaic.Lib.ValueIdx
import Idealize.ShloMosaic.Lib.Pipeline.Value
import Idealize.ShloMosaic.PureOps.Ideal.Laws

noncomputable section

namespace Cert.Gcn

open Cert.ReferenceIdeal Cert.ReferenceIdeal.Gen Cert.ReferenceIdeal.ReadP Idealize.ShloMosaic Idealize.ShloMosaic.TcCoe Idealize.ShloMosaic.ValueIdx
open scoped BigOperators

/-- Node features: one row of 128 channels per node. -/
abbrev Nodes := FVec Ideal S50000x128 .f32
/-- A layer's weight matrix. -/
abbrev Weights := FVec Ideal S128x128 .f32
/-- A per-channel row (a bias, or PReLU's slopes). -/
abbrev Row := FVec Ideal S128 .f32

/-- A per-channel row repeated over every node. -/
def overNodes (b : Row) : Nodes :=
  broadcastInDim S50000x128 ![0, 1] bcast_S1x128_S50000x128_0_1 (broadcastInDim S1x128 ![1] bcast_S128_S1x128_1 b)

/-- Entry (n, ch) of a repeated row is the row's entry ch. -/
theorem overNodes_apply (b : Row) (n : Fin 50000) (ch : Fin 128) : overNodes b (ix2 n ch) = b (ix1 ch) := by
  have e : overNodes b = val_main_v47 (F := Ideal) b := rfl
  rw [e, val_main_v47_apply, val_main_v46_apply]
  exact congrArg b (funext fun a => match a with | ⟨0, _⟩ => rfl)

/-- The all-zero node array. -/
def zeroNodes : Nodes := broadcastInDim S50000x128 ![] bcast_S_S50000x128 (constant (F := Ideal) S_ .f32 0x00000000#32)

theorem zeroNodes_apply (i : S50000x128.Idx) : zeroNodes i = Ideal.ofBits .f32 0x00000000#32 := by
  have e : zeroNodes = val_main_v49 (F := Ideal) := rfl
  rw [e, val_main_v49_apply, val_main_cst_10_apply]
  rfl

/-- The linear map of a layer: the node features times the weight, plus a per-channel row. -/
def lin (X : Nodes) (W : Weights) (b : Row) : Nodes :=
  addf (Host.dotGeneral dot_S50000x128_S128x128_S50000x128_1_0_0_1_n_n none X W) (overNodes b)

/-- Entry (n, ch) of the linear map: Σ_k X(n,k)·W(k,ch) + b(ch). -/
theorem lin_apply (X : Nodes) (W : Weights) (b : Row) (n : Fin 50000) (ch : Fin 128) :
    lin X W b (ix2 n ch) = (∑ k : Fin 128, X (ix2 n k) * W (ix2 k ch)) + b (ix1 ch) := by
  have e : lin X W b = addf (val_main_v32 (F := Ideal) X W) (overNodes b) := rfl
  rw [e, addf_apply, val_main_v32_apply, overNodes_apply]
  refine congrArg (· + b (ix1 ch)) (Finset.sum_congr rfl fun k _ => ?_)
  have el : lidx_main_v32 (ix2 n ch) k = ix2 n k := funext fun a => match a with | ⟨0, _⟩ => rfl | ⟨1, _⟩ => rfl
  have er : ridx_main_v32 (ix2 n ch) k = ix2 k ch := funext fun a => match a with | ⟨0, _⟩ => rfl | ⟨1, _⟩ => rfl
  rw [el, er]

/-- With a zero row the linear map is the bare matrix product: x + 0 = x on the extended reals. -/
theorem lin_zero_row (X : Nodes) (W : Weights) (b : Row) (hb : ∀ j, b j = Ideal.ofBits .f32 0x00000000#32) :
    lin X W b = Host.dotGeneral dot_S50000x128_S128x128_S50000x128_1_0_0_1_n_n none X W := by
  funext i
  obtain ⟨n, ch, rfl⟩ : ∃ (n : Fin 50000) (ch : Fin 128), i = ix2 n ch := ⟨i 0, i 1, eq_ix2 i⟩
  show Host.dotGeneral dot_S50000x128_S128x128_S50000x128_1_0_0_1_n_n none X W (ix2 n ch) + overNodes b (ix2 n ch) = _
  rw [overNodes_apply, hb, Ideal.ofBits_zero_f32, add_zero]

/-- Bias, then the channel-wise PReLU. -/
def prelu (Z : Nodes) (b a : Row) : Nodes :=
  select (cmpf .oge (addf Z (overNodes b)) zeroNodes) (addf Z (overNodes b)) (mulf (overNodes a) (addf Z (overNodes b)))

/-- Entry (n, ch) of bias-then-PReLU. -/
theorem prelu_apply (Z : Nodes) (b a : Row) (n : Fin 50000) (ch : Fin 128) :
    prelu Z b a (ix2 n ch)
      = Scalar.select (FloatOps.cmpf .oge (Z (ix2 n ch) + b (ix1 ch)) (Ideal.ofBits .f32 0x00000000#32))
          (Z (ix2 n ch) + b (ix1 ch)) (a (ix1 ch) * (Z (ix2 n ch) + b (ix1 ch))) := by
  unfold prelu
  rw [select_apply, cmpf_apply, mulf_apply, addf_apply, zeroNodes_apply, overNodes_apply, overNodes_apply]

/-- Adding to the zero array changes nothing: 0 + x = x on the extended reals. -/
theorem zeroNodes_addf (Y : Nodes) : addf zeroNodes Y = Y := by
  funext i
  show zeroNodes i + Y i = Y i
  rw [zeroNodes_apply, Ideal.ofBits_zero_f32, zero_add]

/-! ## The edge list's bookkeeping and the neighbour aggregation

These are stated at any float family `F`: a stretch of host operations is the same text in both programs whatever
the floats are, and comparing two such stretches never needs to know. -/

section AnyFloats

variable {F : FTy → Type} [FloatOps F]

/-- The sources, the destinations (each with the self loops appended: 650000 = 600000 edges + 50000 nodes) and the
    symmetric normalisation deg(src)^(-1/2)·deg(dst)^(-1/2) of every edge: the stretch of host operations both
    programs begin with, kept as the reference's own stages and never opened. -/
def src (e : (⟨S2x600000, .i32⟩ : BufTy).Contents (Elt F)) : (⟨S650000, .i32⟩ : BufTy).Contents (Elt F) := val_main_v3 (F := F) e
def dst (e : (⟨S2x600000, .i32⟩ : BufTy).Contents (Elt F)) : (⟨S650000, .i32⟩ : BufTy).Contents (Elt F) := val_main_v6 (F := F) e
def norm (e : (⟨S2x600000, .i32⟩ : BufTy).Contents (Elt F)) : (⟨S650000, .f32⟩ : BufTy).Contents (Elt F) := val_main_v31 (F := F) e

/-- The normalised neighbour aggregation: gather the rows of `H` at the sources (a negative node number wrapped
    by +50000), scale row e by the edge's normalisation, scatter-add into the destinations from zero. -/
def aggregate (s d : (⟨S650000, .i32⟩ : BufTy).Contents (Elt F)) (nrm : (⟨S650000, .f32⟩ : BufTy).Contents (Elt F))
    (H : (⟨S50000x128, .f32⟩ : BufTy).Contents (Elt F)) : (⟨S50000x128, .f32⟩ : BufTy).Contents (Elt F) :=
  Host.scatterAdd scatter_S50000x128_S650000x1_S650000x128_1_0_0_1
    (broadcastInDim S50000x128 ![] bcast_S_S50000x128 (constant (F := F) S_ .f32 0x00000000#32))
    (broadcastInDim S650000x1 ![0] bcast_S650000_S650000x1_0 d)
    (mulf
      (Host.gather gather_S50000x128_S650000x1_S650000x128_1_0_n_n_0_1_1128 H
        (broadcastInDim S650000x1 ![0] bcast_S650000_S650000x1_0
          (select (cmpi .slt s (broadcastInDim S650000 ![] bcast_S_S650000 (constantI S_ 32 0#32)))
            (addi s (broadcastInDim S650000 ![] bcast_S_S650000 (constantI S_ 32 50000#32))) s)))
      (broadcastInDim S650000x128 ![0, 1] bcast_S650000x1_S650000x128_0_1
        (broadcastInDim S650000x1 ![0] bcast_S650000_S650000x1_0 nrm)))

end AnyFloats

/-- The edge list as given: two rows of 600000 node numbers. -/
abbrev EdgeList := (⟨S2x600000, .i32⟩ : BufTy).Contents (Elt Ideal)

/-- The whole forward pass over the stage functions: layer 0 (linear map without a row, aggregation, bias and
    PReLU), the skip path's linear map added to it, layer 1 the same way. `z` is the zero row the kernel's linear
    maps are given where the reference has none. -/
def forward (x0 : Nodes) (e : EdgeList) (W0 : Weights) (b0 : Row) (W1 : Weights) (b1 : Row) (Ws : Weights) (bs a z : Row) : Nodes :=
  prelu (aggregate (src e) (dst e) (norm e)
    (lin (addf (lin x0 Ws bs) (prelu (aggregate (src e) (dst e) (norm e) (lin x0 W0 z)) b0 a)) W1 z)) b1 a

/-! ## The reference's stages are these functions -/

section Reference

variable (x0 : Nodes) (x1 : EdgeList) (x2 : Weights) (x3 : Row) (x4 : Weights) (x5 : Row) (x6 : Weights) (x7 x8 : Row)

/-- The first layer's linear map has no row: it is `lin` with any zero row. -/
theorem ref_lin0 (z : Row) (hz : ∀ j, z j = Ideal.ofBits .f32 0x00000000#32) : val_main_v32 (F := Ideal) x0 x2 = lin x0 x2 z :=
  (lin_zero_row x0 x2 z hz).symm

/-- The first layer's output. -/
theorem ref_h : val_main_v54 (F := Ideal) x0 x1 x2 x3 x8 = prelu (val_main_v45 (F := Ideal) x0 x1 x2) x3 x8 := rfl

/-- The skip path's linear map. -/
theorem ref_skip : val_main_v58 (F := Ideal) x0 x6 x7 = lin x0 x6 x7 := rfl

/-- The sum over the earlier states: Python's `sum` starts from 0, which adds nothing. -/
theorem ref_u : val_main_v61 (F := Ideal) x0 x1 x2 x3 x6 x7 x8
    = addf (lin x0 x6 x7) (prelu (val_main_v45 (F := Ideal) x0 x1 x2) x3 x8) := by
  have e : val_main_v61 (F := Ideal) x0 x1 x2 x3 x6 x7 x8
      = addf (addf zeroNodes (lin x0 x6 x7)) (prelu (val_main_v45 (F := Ideal) x0 x1 x2) x3 x8) := rfl
  rw [e, zeroNodes_addf]

/-- The second layer's linear map, again with no row. -/
theorem ref_lin1 (z : Row) (hz : ∀ j, z j = Ideal.ofBits .f32 0x00000000#32) :
    val_main_v62 (F := Ideal) x0 x1 x2 x3 x4 x6 x7 x8 = lin (val_main_v61 (F := Ideal) x0 x1 x2 x3 x6 x7 x8) x4 z :=
  (lin_zero_row _ x4 z hz).symm

/-- The result. -/
theorem ref_out : val_main_v84 (F := Ideal) x0 x1 x2 x3 x4 x5 x6 x7 x8
    = prelu (val_main_v75 (F := Ideal) x0 x1 x2 x3 x4 x6 x7 x8) x5 x8 := rfl

/-- The two aggregations are `aggregate` of the shared edge bookkeeping. -/
theorem ref_agg0 : val_main_v45 (F := Ideal) x0 x1 x2 = aggregate (src x1) (dst x1) (norm x1) (val_main_v32 (F := Ideal) x0 x2) := rfl
theorem ref_agg1 : val_main_v75 (F := Ideal) x0 x1 x2 x3 x4 x6 x7 x8
    = aggregate (src x1) (dst x1) (norm x1) (val_main_v62 (F := Ideal) x0 x1 x2 x3 x4 x6 x7 x8) := rfl

/-- THE REFERENCE'S RESULT is the forward pass over the stage functions, for any zero row. -/
theorem ref_forward (z : Row) (hz : ∀ j, z j = Ideal.ofBits .f32 0x00000000#32) :
    val_main_v84 (F := Ideal) x0 x1 x2 x3 x4 x5 x6 x7 x8 = forward x0 x1 x2 x3 x4 x5 x6 x7 x8 z := by
  unfold forward
  rw [ref_out, ref_agg1, ref_lin1 x0 x1 x2 x3 x4 x6 x7 x8 z hz, ref_u, ref_agg0, ref_lin0 x0 x2 z hz]

end Reference

end Cert.Gcn

end
-- ==== Proof.TileValues.lean ====
/-
  What one tile of each kernel body stores, read entry by entry over the extended reals.

  Every kernel of this program works on a tile of 10000 nodes × 128 channels. The linear kernel stores
  (x · w)(p,q) + b(q): a matrix product of the tile's rows with the whole [128,128] weight into a zero accumulator
  (the conversions to bf16 are the identity on the extended reals), plus a [1,128] row spread down the tile. The
  PReLU kernel stores select (z(p,q)+b(q) ≥ 0) (z(p,q)+b(q)) (a(q)·(z(p,q)+b(q))). The three linear bodies are one
  function (the third reshapes its tile to the same shape first, which is the identity), and so are the two
  PReLU bodies.
-/
import proofs.«120138_j45913200394643_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.TcCoe Idealize.ShloMosaic.ValueIdx
open scoped BigOperators

theorem lhs_tile_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_tile_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_tile_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_tile_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's matrix product into a zero accumulator, entry (p, q): the sum over k of x(p,k) · w(k,q). -/
theorem matmul_tile_apply (x : FVec Ideal S10000x128 .bf16) (w : FVec Ideal S128x128 .bf16) (p : Fin 10000) (q : Fin 128) :
    matmul (F := Ideal) dot_S10000x128_S128x128_S10000x128_1_0_0_1_n_n none x w (constant (F := Ideal) S10000x128 .f32 0x00000000#32) (ix2 p q)
      = ∑ k : Fin 128, x (ix2 p k) * w (ix2 k q) := by
  show FloatOps.matmul (F := Ideal) dot_S10000x128_S128x128_S10000x128_1_0_0_1_n_n none x w (constant (F := Ideal) S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-- A [1,128] row spread down the tile, entry (p, q): the row's entry q. -/
theorem rowspread_apply (b2 : Vec Ideal S1x128 .f32) (p : Fin 10000) (q : Fin 128) :
    broadcastTo S10000x128 (shapeCast S1x128 b2 shapeCasts_S1x128_S1x128) broadcasts_S1x128_S10000x128 (ix2 p q) = b2 (ix2 (0 : Fin 1) q) := by
  rw [shapeCast_self]
  refine broadcastTo_apply b2 broadcasts_S1x128_S10000x128 (ix2 p q) (ix2 (0 : Fin 1) q) (fun a => ?_)
  match a with
  | ⟨0, _⟩ => show 0 = if (1 : Nat) = 1 then 0 else _; rw [if_pos rfl]
  | ⟨1, _⟩ => show q.val = if (128 : Nat) = 1 then 0 else q.val; rw [if_neg (by decide)]

/-- The linear body's stored value at entry (p, q) of the tile. -/
theorem k0_pay1_apply (x0 : Vec Ideal S10000x128 .f32) (w : Vec Ideal S128x128 .f32) (b2 : Vec Ideal S1x128 .f32) (p : Fin 10000) (q : Fin 128) :
    k0_pay1 x0 w b2 (ix2 p q) = (∑ k : Fin 128, x0 (ix2 p k) * w (ix2 k q)) + b2 (ix2 (0 : Fin 1) q) := by
  unfold k0_pay1
  show matmul (F := Ideal) dot_S10000x128_S128x128_S10000x128_1_0_0_1_n_n none (truncf .bf16 x0 bitsLt_bf16_f32) (truncf .bf16 w bitsLt_bf16_f32) (constant (F := Ideal) S10000x128 .f32 0x00000000#32) (ix2 p q)
      + broadcastTo S10000x128 (shapeCast S1x128 b2 shapeCasts_S1x128_S1x128) broadcasts_S1x128_S10000x128 (ix2 p q) = _
  rw [matmul_tile_apply, rowspread_apply]
  rfl

/-- The same row spread, without the shape cast to its own shape. -/
theorem rowspread_apply' (b2 : Vec Ideal S1x128 .f32) (p : Fin 10000) (q : Fin 128) :
    broadcastTo S10000x128 b2 broadcasts_S1x128_S10000x128 (ix2 p q) = b2 (ix2 (0 : Fin 1) q) := by
  have h := rowspread_apply b2 p q
  rwa [shapeCast_self] at h

/-- The second linear body is the first's function. -/
theorem k2_pay1_eq (x0 : Vec Ideal S10000x128 .f32) (w : Vec Ideal S128x128 .f32) (b2 : Vec Ideal S1x128 .f32) :
    k2_pay1 x0 w b2 = k0_pay1 x0 w b2 := rfl

/-- The third linear body first casts its tile to its own shape: the identity. -/
theorem k3_pay1_eq (x0 : Vec Ideal S10000x128 .f32) (w : Vec Ideal S128x128 .f32) (b2 : Vec Ideal S1x128 .f32) :
    k3_pay1 x0 w b2 = k0_pay1 x0 w b2 := by
  unfold k3_pay1 k0_pay1
  simp only [shapeCast_self]

/-- The PReLU body's stored value at entry (p, q) of the tile. -/
theorem k1_pay1_apply (z : Vec Ideal S10000x128 .f32) (b2 a2 : Vec Ideal S1x128 .f32) (p : Fin 10000) (q : Fin 128) :
    k1_pay1 z b2 a2 (ix2 p q)
      = Scalar.select (FloatOps.cmpf .oge (z (ix2 p q) + b2 (ix2 (0 : Fin 1) q)) (Ideal.ofBits .f32 0x00000000#32))
          (z (ix2 p q) + b2 (ix2 (0 : Fin 1) q)) (a2 (ix2 (0 : Fin 1) q) * (z (ix2 p q) + b2 (ix2 (0 : Fin 1) q))) := by
  unfold k1_pay1
  simp only [shapeCast_self, select_apply, cmpf_apply, mulf_apply, addf_apply, broadcast_apply]
  rw [rowspread_apply' b2 p q, rowspread_apply' a2 p q]
  rfl

/-- The second PReLU body is the first's function. -/
theorem k4_pay1_eq (z : Vec Ideal S10000x128 .f32) (b2 a2 : Vec Ideal S1x128 .f32) :
    k4_pay1 z b2 a2 = k1_pay1 z b2 a2 := rfl

/-- A [128] row reshaped to [1,128], read at (0, q): the row's entry q. -/
theorem reshaped_row_apply (b : Vec Ideal S128 .f32) (q : Fin 128) :
    shapeCast S1x128 b shapeCasts_S128_S1x128 (ix2 (0 : Fin 1) q) = b (ix1 q) := by
  refine shapeCast_apply b shapeCasts_S128_S1x128 (ix2 (0 : Fin 1) q) (ix1 q) ?_
  rw [Shape.rowMajor_val_one, Shape.rowMajor_val_two]
  show q.val = 0 * 128 + q.val
  omega

end Cert.KernelIdeal.Tile

end
-- ==== Proof.Region0.lean ====
/-
  What region 0 (a linear kernel over five tiles of 10000 nodes) leaves in its output array, as one function
  of the arrays it is entered with.

  Point t of the grid reads rows 10000·t … 10000·t + 9999 of the node array, the whole weight and the whole
  [1,128] row, and writes the same rows of the output: entry (p, q) of what it stores is
  Σ_k X(10000·t + p, k)·W(k, q) + row(q), which is entry (10000·t + p, q) of `Gcn.lin X W row`. The five tiles
  are disjoint and cover all 50000 rows (row r lies in tile r / 10000), so after the region the output array is
  `Gcn.lin` of the entry contents everywhere.
-/
import proofs.«120138_j45913200394643_1_alg».proof.Proof.Gen.KernelIdeal.Frame
import proofs.«120138_j45913200394643_1_alg».proof.Proof.TileValues
import proofs.«120138_j45913200394643_1_alg».proof.Proof.GcnStages

set_option maxRecDepth 16384

noncomputable section

namespace Cert.KernelIdeal.Region0

open Cert.KernelIdeal Cert.KernelIdeal.Gen Cert.KernelIdeal.Tile Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the five grid points: the node tiles (input and output) move with the point, the weight
    and the row stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of tile t is row 10000·t + p of the array. -/
theorem tile_row_lt (t : Fin cfg0.N) (p : Fin 10000) : t.val * 10000 + p.val < 50000 := by
  have ht : t.val < 5 := t.isLt
  omega

/-- The three input blocks at a point, at their literal shapes. -/
abbrev nodesTile (c : Dev nD) (t : Fin cfg0.N) : Vec Ideal S10000x128 .f32 := iblk0 V c 0 t
abbrev weightTile (c : Dev nD) (t : Fin cfg0.N) : Vec Ideal S128x128 .f32 := iblk0 V c 1 t
abbrev rowTile (c : Dev nD) (t : Fin cfg0.N) : Vec Ideal S1x128 .f32 := iblk0 V c 2 t

theorem read_nodes (c : Dev nD) (t : Fin cfg0.N) (p : Fin 10000) (k : Fin 128) :
    nodesTile V c t (ix2 p k) = V c main_arg0 (ix2 ⟨t.val * 10000 + p.val, tile_row_lt t p⟩ k) := by
  show V c main_arg0 (((cfg0.win 0).blk t).view.emb (ix2 p k)) = _
  refine congrArg (V c main_arg0) (funext fun a => Fin.ext ?_)
  obtain ⟨e0, e1, -⟩ := index_maps t
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

theorem read_weight (c : Dev nD) (t : Fin cfg0.N) (k q : Fin 128) :
    weightTile V c t (ix2 k q) = V c main_arg2 (ix2 k q) := by
  show V c main_arg2 (((cfg0.win 1).blk t).view.emb (ix2 k q)) = _
  refine congrArg (V c main_arg2) (funext fun a => Fin.ext ?_)
  obtain ⟨-, -, e2, e3, -⟩ := index_maps t
  match a with
  | ⟨0, _⟩ => show win0_1.index t (0 : Fin 2) * 128 + 1 * k.val = k.val; rw [e2]; omega
  | ⟨1, _⟩ => show win0_1.index t (1 : Fin 2) * 128 + 1 * q.val = q.val; rw [e3]; omega

theorem read_row (c : Dev nD) (t : Fin cfg0.N) (q : Fin 128) :
    rowTile V c t (ix2 (0 : Fin 1) q) = V c main_v33 (ix2 (0 : Fin 1) q) := by
  show V c main_v33 (((cfg0.win 2).blk t).view.emb (ix2 (0 : Fin 1) q)) = _
  refine congrArg (V c main_v33) (funext fun a => Fin.ext ?_)
  obtain ⟨-, -, -, -, e4, e5, -⟩ := index_maps t
  match a with
  | ⟨0, _⟩ => show win0_2.index t (0 : Fin 2) * 1 + 1 * 0 = 0; rw [e4]
  | ⟨1, _⟩ => show win0_2.index t (1 : Fin 2) * 128 + 1 * q.val = q.val; rw [e5]; omega

/-- Entry (p, q) of tile t of the output is entry (10000·t + p, q) of the array. -/
theorem out_index (t : Fin cfg0.N) (p : Fin 10000) (q : Fin 128) :
    ((cfg0.win 3).blk t).view.emb (ix2 p q) = ix2 ⟨t.val * 10000 + p.val, tile_row_lt t p⟩ q := by
  refine funext fun a => Fin.ext ?_
  obtain ⟨-, -, -, -, -, -, e6, e7⟩ := index_maps t
  match a with
  | ⟨0, _⟩ => show win0_3.index t (0 : Fin 2) * 10000 + 1 * p.val = t.val * 10000 + p.val; rw [e6]; omega
  | ⟨1, _⟩ => show win0_3.index t (1 : Fin 2) * 128 + 1 * q.val = q.val; rw [e7]; omega

/-- WHAT POINT t WRITES BACK is tile t of `Gcn.lin` of the entry contents, when the [1,128] row window holds a
    reshaped [128] row. -/
theorem flushed_eq (c : Dev nD) (t : Fin cfg0.N) (z : Cert.Gcn.Row)
    (hz : V c main_v33 = shapeCast S1x128 z shapeCasts_S128_S1x128) :
    (dat0 V c).flushed 3 t
      = ((cfg0.win 3).blk t).view.read (Elt Ideal) (Cert.Gcn.lin (V c main_arg0) (V c main_arg2) z) := by
  show (cfg0.win 3).cut (grid0.coords t) ((dat0 V c).after 3 t) = _
  rw [after0_3]
  unfold out0_3
  rw [View.canon_unit_zero zeros2]
  simp only [View.ld_unit_zero (S := S10000x128) zeros2, View.ld_unit_zero (S := S128x128) zeros2, View.ld_unit_zero (S := S1x128) zeros2]
  refine funext fun (j : S10000x128.Idx) => ?_
  obtain ⟨p, q, rfl⟩ : ∃ (p : Fin 10000) (q : Fin 128), j = ix2 p q := ⟨j 0, j 1, eq_ix2 j⟩
  show k0_pay1 (nodesTile V c t) (weightTile V c t) (rowTile V c t) (ix2 p q)
      = Cert.Gcn.lin (V c main_arg0) (V c main_arg2) z (((cfg0.win 3).blk t).view.emb (ix2 p q))
  rw [k0_pay1_apply, out_index, Cert.Gcn.lin_apply]
  refine congrArg₂ (· + ·) (Finset.sum_congr rfl fun k _ => ?_) ?_
  · rw [read_nodes, read_weight]
  · rw [read_row, hz, reshaped_row_apply]

/-- An index of the output array is in tile t iff each coordinate is in the tile's range on its axis. -/
theorem mem_tile (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v34).slice (win0_3.rect t)).set ↔ _
  rw [View.set_slice_whole, Rect.mem_set_unit]
  exact Iff.rfl

/-- Every row lies in some tile: row r in tile r / 10000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 10000 < 5 := by omega
  refine ⟨⟨(i 0).val / 10000, ht⟩, flush0_3 _, ?_⟩
  rw [mem_tile]
  obtain ⟨-, -, -, -, -, -, e6, e7⟩ := index_maps ⟨(i 0).val / 10000, ht⟩
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, ht⟩ (1 : Fin 2) * 128 ≤ (i 1).val ∧ (i 1).val < win0_3.index ⟨(i 0).val / 10000, ht⟩ (1 : Fin 2) * 128 + 128
    rw [e7]; omega

/-- THE OUTPUT ARRAY after the region: `Gcn.lin` of the node array, the weight and the row it was entered with. -/
theorem final (c : Dev nD) (z : Cert.Gcn.Row) (hz : V c main_v33 = shapeCast S1x128 z shapeCasts_S128_S1x128) :
    (dat0 V c).arrAt 3 cfg0.N = Cert.Gcn.lin (V c main_arg0) (V c main_arg2) z :=
  (dat0 V c).arrAt_eq_of_cover 3 (Cert.Gcn.lin (V c main_arg0) (V c main_arg2) z) (fun t _ => flushed_eq V c t z hz) covered

end Cert.KernelIdeal.Region0

end
-- ==== Proof.Region1.lean ====
/-
  What region 1 (the bias-and-PReLU kernel over five tiles of 10000 nodes) leaves in its output array, as one
  function of the arrays it is entered with.

  Point t of the grid reads rows 10000·t … 10000·t + 9999 of the aggregated array and the two whole [1,128]
  rows (bias, slopes), and writes the same rows of the output: entry (p, q) of what it stores is
  select (v ≥ 0) v (a(q)·v) with v = Z(10000·t + p, q) + b(q), which is entry (10000·t + p, q) of
  `Gcn.prelu Z b a`. The five tiles are disjoint and cover all 50000 rows, so after the region the output array
  is `Gcn.prelu` of the entry contents everywhere.
-/
import proofs.«120138_j45913200394643_1_alg».proof.Proof.Gen.KernelIdeal.Frame
import proofs.«120138_j45913200394643_1_alg».proof.Proof.TileValues
import proofs.«120138_j45913200394643_1_alg».proof.Proof.GcnStages

set_option maxRecDepth 16384

noncomputable section

namespace Cert.KernelIdeal.Region1

open Cert.KernelIdeal Cert.KernelIdeal.Gen Cert.KernelIdeal.Tile Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the five grid points: the node tiles (input and output) move with the point, the two
    rows stay at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of tile t is row 10000·t + p of the array. -/
theorem tile_row_lt (t : Fin cfg1.N) (p : Fin 10000) : t.val * 10000 + p.val < 50000 := by
  have ht : t.val < 5 := t.isLt
  omega

/-- The three input blocks at a point, at their literal shapes. -/
abbrev nodesTile (c : Dev nD) (t : Fin cfg1.N) : Vec Ideal S10000x128 .f32 := iblk1 V c 0 t
abbrev biasTile (c : Dev nD) (t : Fin cfg1.N) : Vec Ideal S1x128 .f32 := iblk1 V c 1 t
abbrev slopeTile (c : Dev nD) (t : Fin cfg1.N) : Vec Ideal S1x128 .f32 := iblk1 V c 2 t

theorem read_nodes (c : Dev nD) (t : Fin cfg1.N) (p : Fin 10000) (q : Fin 128) :
    nodesTile V c t (ix2 p q) = V c main_v47 (ix2 ⟨t.val * 10000 + p.val, tile_row_lt t p⟩ q) := by
  show V c main_v47 (((cfg1.win 0).blk t).view.emb (ix2 p q)) = _
  refine congrArg (V c main_v47) (funext fun a => Fin.ext ?_)
  obtain ⟨e0, e1, -⟩ := index_maps t
  match a with
  | ⟨0, _⟩ => show win1_0.index t (0 : Fin 2) * 10000 + 1 * p.val = t.val * 10000 + p.val; rw [e0]; omega
  | ⟨1, _⟩ => show win1_0.index t (1 : Fin 2) * 128 + 1 * q.val = q.val; rw [e1]; omega

theorem read_bias (c : Dev nD) (t : Fin cfg1.N) (q : Fin 128) :
    biasTile V c t (ix2 (0 : Fin 1) q) = V c main_v48 (ix2 (0 : Fin 1) q) := by
  show V c main_v48 (((cfg1.win 1).blk t).view.emb (ix2 (0 : Fin 1) q)) = _
  refine congrArg (V c main_v48) (funext fun a => Fin.ext ?_)
  obtain ⟨-, -, e2, e3, -⟩ := index_maps t
  match a with
  | ⟨0, _⟩ => show win1_1.index t (0 : Fin 2) * 1 + 1 * 0 = 0; rw [e2]
  | ⟨1, _⟩ => show win1_1.index t (1 : Fin 2) * 128 + 1 * q.val = q.val; rw [e3]; omega

theorem read_slope (c : Dev nD) (t : Fin cfg1.N) (q : Fin 128) :
    slopeTile V c t (ix2 (0 : Fin 1) q) = V c main_v49 (ix2 (0 : Fin 1) q) := by
  show V c main_v49 (((cfg1.win 2).blk t).view.emb (ix2 (0 : Fin 1) q)) = _
  refine congrArg (V c main_v49) (funext fun a => Fin.ext ?_)
  obtain ⟨-, -, -, -, e4, e5, -⟩ := index_maps t
  match a with
  | ⟨0, _⟩ => show win1_2.index t (0 : Fin 2) * 1 + 1 * 0 = 0; rw [e4]
  | ⟨1, _⟩ => show win1_2.index t (1 : Fin 2) * 128 + 1 * q.val = q.val; rw [e5]; omega

/-- Entry (p, q) of tile t of the output is entry (10000·t + p, q) of the array. -/
theorem out_index (t : Fin cfg1.N) (p : Fin 10000) (q : Fin 128) :
    ((cfg1.win 3).blk t).view.emb (ix2 p q) = ix2 ⟨t.val * 10000 + p.val, tile_row_lt t p⟩ q := by
  refine funext fun a => Fin.ext ?_
  obtain ⟨-, -, -, -, -, -, e6, e7⟩ := index_maps t
  match a with
  | ⟨0, _⟩ => show win1_3.index t (0 : Fin 2) * 10000 + 1 * p.val = t.val * 10000 + p.val; rw [e6]; omega
  | ⟨1, _⟩ => show win1_3.index t (1 : Fin 2) * 128 + 1 * q.val = q.val; rw [e7]; omega

/-- WHAT POINT t WRITES BACK is tile t of `Gcn.prelu` of the entry contents, when the two [1,128] row windows hold
    reshaped [128] rows. -/
theorem flushed_eq (c : Dev nD) (t : Fin cfg1.N) (b a : Cert.Gcn.Row)
    (hb : V c main_v48 = shapeCast S1x128 b shapeCasts_S128_S1x128)
    (ha : V c main_v49 = shapeCast S1x128 a shapeCasts_S128_S1x128) :
    (dat1 V c).flushed 3 t
      = ((cfg1.win 3).blk t).view.read (Elt Ideal) (Cert.Gcn.prelu (V c main_v47) b a) := by
  show (cfg1.win 3).cut (grid1.coords t) ((dat1 V c).after 3 t) = _
  rw [after1_3]
  unfold out1_3
  rw [View.canon_unit_zero zeros2]
  simp only [View.ld_unit_zero (S := S10000x128) zeros2, View.ld_unit_zero (S := S1x128) zeros2]
  refine funext fun (j : S10000x128.Idx) => ?_
  obtain ⟨p, q, rfl⟩ : ∃ (p : Fin 10000) (q : Fin 128), j = ix2 p q := ⟨j 0, j 1, eq_ix2 j⟩
  show k1_pay1 (nodesTile V c t) (biasTile V c t) (slopeTile V c t) (ix2 p q)
      = Cert.Gcn.prelu (V c main_v47) b a (((cfg1.win 3).blk t).view.emb (ix2 p q))
  rw [k1_pay1_apply, out_index, Cert.Gcn.prelu_apply, read_nodes, read_bias, read_slope, hb, ha,
    reshaped_row_apply, reshaped_row_apply]

/-- An index of the output array is in tile t iff each coordinate is in the tile's range on its axis. -/
theorem mem_tile (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v50).slice (win1_3.rect t)).set ↔ _
  rw [View.set_slice_whole, Rect.mem_set_unit]
  exact Iff.rfl

/-- Every row lies in some tile: row r in tile r / 10000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 10000 < 5 := by omega
  refine ⟨⟨(i 0).val / 10000, ht⟩, flush1_3 _, ?_⟩
  rw [mem_tile]
  obtain ⟨-, -, -, -, -, -, e6, e7⟩ := index_maps ⟨(i 0).val / 10000, ht⟩
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 128 ≤ (i 1).val ∧ (i 1).val < win1_3.index ⟨(i 0).val / 10000, ht⟩ (1 : Fin 2) * 128 + 128
    rw [e7]; omega

/-- THE OUTPUT ARRAY after the region: `Gcn.prelu` of the aggregated array, the bias and the slopes it was
    entered with. -/
theorem final (c : Dev nD) (b a : Cert.Gcn.Row)
    (hb : V c main_v48 = shapeCast S1x128 b shapeCasts_S128_S1x128)
    (ha : V c main_v49 = shapeCast S1x128 a shapeCasts_S128_S1x128) :
    (dat1 V c).arrAt 3 cfg1.N = Cert.Gcn.prelu (V c main_v47) b a :=
  (dat1 V c).arrAt_eq_of_cover 3 (Cert.Gcn.prelu (V c main_v47) b a) (fun t _ => flushed_eq V c t b a hb ha) covered

end Cert.KernelIdeal.Region1

end
-- ==== Proof.Region2.lean ====
/-
  What region 2 (a linear kernel over five tiles of 10000 nodes) leaves in its output array, as one function
  of the arrays it is entered with.

  Point t of the grid reads rows 10000·t … 10000·t + 9999 of the node array, the whole weight and the whole
  [1,128] row, and writes the same rows of the output: entry (p, q) of what it stores is
  Σ_k X(10000·t + p, k)·W(k, q) + row(q), which is entry (10000·t + p, q) of `Gcn.lin X W row`. The five tiles
  are disjoint and cover all 50000 rows (row r lies in tile r / 10000), so after the region the output array is
  `Gcn.lin` of the entry contents everywhere.
-/
import proofs.«120138_j45913200394643_1_alg».proof.Proof.Gen.KernelIdeal.Frame
import proofs.«120138_j45913200394643_1_alg».proof.Proof.TileValues
import proofs.«120138_j45913200394643_1_alg».proof.Proof.GcnStages

set_option maxRecDepth 16384

noncomputable section

namespace Cert.KernelIdeal.Region2

open Cert.KernelIdeal Cert.KernelIdeal.Gen Cert.KernelIdeal.Tile Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the five grid points: the node tiles (input and output) move with the point, the weight
    and the row stay at block (0, 0). -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of tile t is row 10000·t + p of the array. -/
theorem tile_row_lt (t : Fin cfg2.N) (p : Fin 10000) : t.val * 10000 + p.val < 50000 := by
  have ht : t.val < 5 := t.isLt
  omega

/-- The three input blocks at a point, at their literal shapes. -/
abbrev nodesTile (c : Dev nD) (t : Fin cfg2.N) : Vec Ideal S10000x128 .f32 := iblk2 V c 0 t
abbrev weightTile (c : Dev nD) (t : Fin cfg2.N) : Vec Ideal S128x128 .f32 := iblk2 V c 1 t
abbrev rowTile (c : Dev nD) (t : Fin cfg2.N) : Vec Ideal S1x128 .f32 := iblk2 V c 2 t

theorem read_nodes (c : Dev nD) (t : Fin cfg2.N) (p : Fin 10000) (k : Fin 128) :
    nodesTile V c t (ix2 p k) = V c main_arg0 (ix2 ⟨t.val * 10000 + p.val, tile_row_lt t p⟩ k) := by
  show V c main_arg0 (((cfg2.win 0).blk t).view.emb (ix2 p k)) = _
  refine congrArg (V c main_arg0) (funext fun a => Fin.ext ?_)
  obtain ⟨e0, e1, -⟩ := index_maps t
  match a with
  | ⟨0, _⟩ => show win2_0.index t (0 : Fin 2) * 10000 + 1 * p.val = t.val * 10000 + p.val; rw [e0]; omega
  | ⟨1, _⟩ => show win2_0.index t (1 : Fin 2) * 128 + 1 * k.val = k.val; rw [e1]; omega

theorem read_weight (c : Dev nD) (t : Fin cfg2.N) (k q : Fin 128) :
    weightTile V c t (ix2 k q) = V c main_arg6 (ix2 k q) := by
  show V c main_arg6 (((cfg2.win 1).blk t).view.emb (ix2 k q)) = _
  refine congrArg (V c main_arg6) (funext fun a => Fin.ext ?_)
  obtain ⟨-, -, e2, e3, -⟩ := index_maps t
  match a with
  | ⟨0, _⟩ => show win2_1.index t (0 : Fin 2) * 128 + 1 * k.val = k.val; rw [e2]; omega
  | ⟨1, _⟩ => show win2_1.index t (1 : Fin 2) * 128 + 1 * q.val = q.val; rw [e3]; omega

theorem read_row (c : Dev nD) (t : Fin cfg2.N) (q : Fin 128) :
    rowTile V c t (ix2 (0 : Fin 1) q) = V c main_v51 (ix2 (0 : Fin 1) q) := by
  show V c main_v51 (((cfg2.win 2).blk t).view.emb (ix2 (0 : Fin 1) q)) = _
  refine congrArg (V c main_v51) (funext fun a => Fin.ext ?_)
  obtain ⟨-, -, -, -, e4, e5, -⟩ := index_maps t
  match a with
  | ⟨0, _⟩ => show win2_2.index t (0 : Fin 2) * 1 + 1 * 0 = 0; rw [e4]
  | ⟨1, _⟩ => show win2_2.index t (1 : Fin 2) * 128 + 1 * q.val = q.val; rw [e5]; omega

/-- Entry (p, q) of tile t of the output is entry (10000·t + p, q) of the array. -/
theorem out_index (t : Fin cfg2.N) (p : Fin 10000) (q : Fin 128) :
    ((cfg2.win 3).blk t).view.emb (ix2 p q) = ix2 ⟨t.val * 10000 + p.val, tile_row_lt t p⟩ q := by
  refine funext fun a => Fin.ext ?_
  obtain ⟨-, -, -, -, -, -, e6, e7⟩ := index_maps t
  match a with
  | ⟨0, _⟩ => show win2_3.index t (0 : Fin 2) * 10000 + 1 * p.val = t.val * 10000 + p.val; rw [e6]; omega
  | ⟨1, _⟩ => show win2_3.index t (1 : Fin 2) * 128 + 1 * q.val = q.val; rw [e7]; omega

/-- WHAT POINT t WRITES BACK is tile t of `Gcn.lin` of the entry contents, when the [1,128] row window holds a
    reshaped [128] row. -/
theorem flushed_eq (c : Dev nD) (t : Fin cfg2.N) (z : Cert.Gcn.Row)
    (hz : V c main_v51 = shapeCast S1x128 z shapeCasts_S128_S1x128) :
    (dat2 V c).flushed 3 t
      = ((cfg2.win 3).blk t).view.read (Elt Ideal) (Cert.Gcn.lin (V c main_arg0) (V c main_arg6) z) := by
  show (cfg2.win 3).cut (grid2.coords t) ((dat2 V c).after 3 t) = _
  rw [after2_3]
  unfold out2_3
  rw [View.canon_unit_zero zeros2]
  simp only [View.ld_unit_zero (S := S10000x128) zeros2, View.ld_unit_zero (S := S128x128) zeros2, View.ld_unit_zero (S := S1x128) zeros2]
  refine funext fun (j : S10000x128.Idx) => ?_
  obtain ⟨p, q, rfl⟩ : ∃ (p : Fin 10000) (q : Fin 128), j = ix2 p q := ⟨j 0, j 1, eq_ix2 j⟩
  show k2_pay1 (nodesTile V c t) (weightTile V c t) (rowTile V c t) (ix2 p q)
      = Cert.Gcn.lin (V c main_arg0) (V c main_arg6) z (((cfg2.win 3).blk t).view.emb (ix2 p q))
  rw [k2_pay1_eq, k0_pay1_apply, out_index, Cert.Gcn.lin_apply]
  refine congrArg₂ (· + ·) (Finset.sum_congr rfl fun k _ => ?_) ?_
  · rw [read_nodes, read_weight]
  · rw [read_row, hz, reshaped_row_apply]

/-- An index of the output array is in tile t iff each coordinate is in the tile's range on its axis. -/
theorem mem_tile (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v52).slice (win2_3.rect t)).set ↔ _
  rw [View.set_slice_whole, Rect.mem_set_unit]
  exact Iff.rfl

/-- Every row lies in some tile: row r in tile r / 10000. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have ht : (i 0).val / 10000 < 5 := by omega
  refine ⟨⟨(i 0).val / 10000, ht⟩, flush2_3 _, ?_⟩
  rw [mem_tile]
  obtain ⟨-, -, -, -, -, -, e6, e7⟩ := index_maps ⟨(i 0).val / 10000, ht⟩
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 128 ≤ (i 1).val ∧ (i 1).val < win2_3.index ⟨(i 0).val / 10000, ht⟩ (1 : Fin 2) * 128 + 128
    rw [e7]; omega

/-- THE OUTPUT ARRAY after the region: `Gcn.lin` of the node array, the weight and the row it was entered with. -/
theorem final (c : Dev nD) (z : Cert.Gcn.Row) (hz : V c main_v51 = shapeCast S1x128 z shapeCasts_S128_S1x128) :
    (dat2 V c).arrAt 3 cfg2.N = Cert.Gcn.lin (V c main_arg0) (V c main_arg6) z :=
  (dat2 V c).arrAt_eq_of_cover 3 (Cert.Gcn.lin (V c main_arg0) (V c main_arg6) z) (fun t _ => flushed_eq V c t z hz) covered

end Cert.KernelIdeal.Region2

end
-- ==== Proof.Region3.lean ====
/-
  What region 3 (a linear kernel over five tiles of 10000 nodes) leaves in its output array, as one function
  of the arrays it is entered with.

  Point t of the grid reads rows 10000·t … 10000·t + 9999 of the node array, the whole weight and the whole
  [1,128] row, and writes the same rows of the output: entry (p, q) of what it stores is
  Σ_k X(10000·t + p, k)·W(k, q) + row(q), which is entry (10000·t + p, q) of `Gcn.lin X W row`. The five tiles
  are disjoint and cover all 50000 rows (row r lies in tile r / 10000), so after the region the output array is
  `Gcn.lin` of the entry contents everywhere.
-/
import proofs.«120138_j45913200394643_1_alg».proof.Proof.Gen.KernelIdeal.Frame
import proofs.«120138_j45913200394643_1_alg».proof.Proof.TileValues
import proofs.«120138_j45913200394643_1_alg».proof.Proof.GcnStages

set_option maxRecDepth 16384

noncomputable section

namespace Cert.KernelIdeal.Region3

open Cert.KernelIdeal Cert.KernelIdeal.Gen Cert.KernelIdeal.Tile Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the five grid points: the node tiles (input and output) move with the point, the weight
    and the row stay at block (0, 0). -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of tile t is row 10000·t + p of the array. -/
theorem tile_row_lt (t : Fin cfg3.N) (p : Fin 10000) : t.val * 10000 + p.val < 50000 := by
  have ht : t.val < 5 := t.isLt
  omega

/-- The three input blocks at a point, at their literal shapes. -/
abbrev nodesTile (c : Dev nD) (t : Fin cfg3.N) : Vec Ideal S10000x128 .f32 := iblk3 V c 0 t
abbrev weightTile (c : Dev nD) (t : Fin cfg3.N) : Vec Ideal S128x128 .f32 := iblk3 V c 1 t
abbrev rowTile (c : Dev nD) (t : Fin cfg3.N) : Vec Ideal S1x128 .f32 := iblk3 V c 2 t

theorem read_nodes (c : Dev nD) (t : Fin cfg3.N) (p : Fin 10000) (k : Fin 128) :
    nodesTile V c t (ix2 p k) = V c main_v53 (ix2 ⟨t.val * 10000 + p.val, tile_row_lt t p⟩ k) := by
  show V c main_v53 (((cfg3.win 0).blk t).view.emb (ix2 p k)) = _
  refine congrArg (V c main_v53) (funext fun a => Fin.ext ?_)
  obtain ⟨e0, e1, -⟩ := index_maps t
  match a with
  | ⟨0, _⟩ => show win3_0.index t (0 : Fin 2) * 10000 + 1 * p.val = t.val * 10000 + p.val; rw [e0]; omega
  | ⟨1, _⟩ => show win3_0.index t (1 : Fin 2) * 128 + 1 * k.val = k.val; rw [e1]; omega

theorem read_weight (c : Dev nD) (t : Fin cfg3.N) (k q : Fin 128) :
    weightTile V c t (ix2 k q) = V c main_arg4 (ix2 k q) := by
  show V c main_arg4 (((cfg3.win 1).blk t).view.emb (ix2 k q)) = _
  refine congrArg (V c main_arg4) (funext fun a => Fin.ext ?_)
  obtain ⟨-, -, e2, e3, -⟩ := index_maps t
  match a with
  | ⟨0, _⟩ => show win3_1.index t (0 : Fin 2) * 128 + 1 * k.val = k.val; rw [e2]; omega
  | ⟨1, _⟩ => show win3_1.index t (1 : Fin 2) * 128 + 1 * q.val = q.val; rw [e3]; omega

theorem read_row (c : Dev nD) (t : Fin cfg3.N) (q : Fin 128) :
    rowTile V c t (ix2 (0 : Fin 1) q) = V c main_v54 (ix2 (0 : Fin 1) q) := by
  show V c main_v54 (((cfg3.win 2).blk t).view.emb (ix2 (0 : Fin 1) q)) = _
  refine congrArg (V c main_v54) (funext fun a => Fin.ext ?_)
  obtain ⟨-, -, -, -, e4, e5, -⟩ := index_maps t
  match a with
  | ⟨0, _⟩ => show win3_2.index t (0 : Fin 2) * 1 + 1 * 0 = 0; rw [e4]
  | ⟨1, _⟩ => show win3_2.index t (1 : Fin 2) * 128 + 1 * q.val = q.val; rw [e5]; omega

/-- Entry (p, q) of tile t of the output is entry (10000·t + p, q) of the array. -/
theorem out_index (t : Fin cfg3.N) (p : Fin 10000) (q : Fin 128) :
    ((cfg3.win 3).blk t).view.emb (ix2 p q) = ix2 ⟨t.val * 10000 + p.val, tile_row_lt t p⟩ q := by
  refine funext fun a => Fin.ext ?_
  obtain ⟨-, -, -, -, -, -, e6, e7⟩ := index_maps t
  match a with
  | ⟨0, _⟩ => show win3_3.index t (0 : Fin 2) * 10000 + 1 * p.val = t.val * 10000 + p.val; rw [e6]; omega
  | ⟨1, _⟩ => show win3_3.index t (1 : Fin 2) * 128 + 1 * q.val = q.val; rw [e7]; omega

/-- WHAT POINT t WRITES BACK is tile t of `Gcn.lin` of the entry contents, when the [1,128] row window holds a
    reshaped [128] row. -/
theorem flushed_eq (c : Dev nD) (t : Fin cfg3.N) (z : Cert.Gcn.Row)
    (hz : V c main_v54 = shapeCast S1x128 z shapeCasts_S128_S1x128) :
    (dat3 V c).flushed 3 t
      = ((cfg3.win 3).blk t).view.read (Elt Ideal) (Cert.Gcn.lin (V c main_v53) (V c main_arg4) z) := by
  show (cfg3.win 3).cut (grid3.coords t) ((dat3 V c).after 3 t) = _
  rw [after3_3]
  unfold out3_3
  rw [View.canon_unit_zero zeros2]
  simp only [View.ld_unit_zero (S := S10000x128) zeros2, View.ld_unit_zero (S := S128x128) zeros2, View.ld_unit_zero (S := S1x128) zeros2]
  refine funext fun (j : S10000x128.Idx) => ?_
  obtain ⟨p, q, rfl⟩ : ∃ (p : Fin 10000) (q : Fin 128), j = ix2 p q := ⟨j 0, j 1, eq_ix2 j⟩
  show k3_pay1 (nodesTile V c t) (weightTile V c t) (rowTile V c t) (ix2 p q)
      = Cert.Gcn.lin (V c main_v53) (V c main_arg4) z (((cfg3.win 3).blk t).view.emb (ix2 p q))
  rw [k3_pay1_eq, k0_pay1_apply, out_index, Cert.Gcn.lin_apply]
  refine congrArg₂ (· + ·) (Finset.sum_congr rfl fun k _ => ?_) ?_
  · rw [read_nodes, read_weight]
  · rw [read_row, hz, reshaped_row_apply]

/-- An index of the output array is in tile t iff each coordinate is in the tile's range on its axis. -/
theorem mem_tile (t : Fin cfg3.N) (i : S50000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v55).slice (win3_3.rect t)).set ↔ _
  rw [View.set_slice_whole, Rect.mem_set_unit]
  exact Iff.rfl

/-- Every row lies in some tile: row r in tile r / 10000. -/
theorem covered (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have ht : (i 0).val / 10000 < 5 := by omega
  refine ⟨⟨(i 0).val / 10000, ht⟩, flush3_3 _, ?_⟩
  rw [mem_tile]
  obtain ⟨-, -, -, -, -, -, e6, e7⟩ := index_maps ⟨(i 0).val / 10000, ht⟩
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win3_3.index ⟨(i 0).val / 10000, ht⟩ (1 : Fin 2) * 128 ≤ (i 1).val ∧ (i 1).val < win3_3.index ⟨(i 0).val / 10000, ht⟩ (1 : Fin 2) * 128 + 128
    rw [e7]; omega

/-- THE OUTPUT ARRAY after the region: `Gcn.lin` of the node array, the weight and the row it was entered with. -/
theorem final (c : Dev nD) (z : Cert.Gcn.Row) (hz : V c main_v54 = shapeCast S1x128 z shapeCasts_S128_S1x128) :
    (dat3 V c).arrAt 3 cfg3.N = Cert.Gcn.lin (V c main_v53) (V c main_arg4) z :=
  (dat3 V c).arrAt_eq_of_cover 3 (Cert.Gcn.lin (V c main_v53) (V c main_arg4) z) (fun t _ => flushed_eq V c t z hz) covered

end Cert.KernelIdeal.Region3

end
-- ==== Proof.Region4.lean ====
/-
  What region 4 (the bias-and-PReLU kernel over five tiles of 10000 nodes) leaves in its output array, as one
  function of the arrays it is entered with.

  Point t of the grid reads rows 10000·t … 10000·t + 9999 of the aggregated array and the two whole [1,128]
  rows (bias, slopes), and writes the same rows of the output: entry (p, q) of what it stores is
  select (v ≥ 0) v (a(q)·v) with v = Z(10000·t + p, q) + b(q), which is entry (10000·t + p, q) of
  `Gcn.prelu Z b a`. The five tiles are disjoint and cover all 50000 rows, so after the region the output array
  is `Gcn.prelu` of the entry contents everywhere.
-/
import proofs.«120138_j45913200394643_1_alg».proof.Proof.Gen.KernelIdeal.Frame
import proofs.«120138_j45913200394643_1_alg».proof.Proof.TileValues
import proofs.«120138_j45913200394643_1_alg».proof.Proof.GcnStages

set_option maxRecDepth 16384

noncomputable section

namespace Cert.KernelIdeal.Region4

open Cert.KernelIdeal Cert.KernelIdeal.Gen Cert.KernelIdeal.Tile Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the five grid points: the node tiles (input and output) move with the point, the two
    rows stay at block (0, 0). -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of tile t is row 10000·t + p of the array. -/
theorem tile_row_lt (t : Fin cfg4.N) (p : Fin 10000) : t.val * 10000 + p.val < 50000 := by
  have ht : t.val < 5 := t.isLt
  omega

/-- The three input blocks at a point, at their literal shapes. -/
abbrev nodesTile (c : Dev nD) (t : Fin cfg4.N) : Vec Ideal S10000x128 .f32 := iblk4 V c 0 t
abbrev biasTile (c : Dev nD) (t : Fin cfg4.N) : Vec Ideal S1x128 .f32 := iblk4 V c 1 t
abbrev slopeTile (c : Dev nD) (t : Fin cfg4.N) : Vec Ideal S1x128 .f32 := iblk4 V c 2 t

theorem read_nodes (c : Dev nD) (t : Fin cfg4.N) (p : Fin 10000) (q : Fin 128) :
    nodesTile V c t (ix2 p q) = V c main_v68 (ix2 ⟨t.val * 10000 + p.val, tile_row_lt t p⟩ q) := by
  show V c main_v68 (((cfg4.win 0).blk t).view.emb (ix2 p q)) = _
  refine congrArg (V c main_v68) (funext fun a => Fin.ext ?_)
  obtain ⟨e0, e1, -⟩ := index_maps t
  match a with
  | ⟨0, _⟩ => show win4_0.index t (0 : Fin 2) * 10000 + 1 * p.val = t.val * 10000 + p.val; rw [e0]; omega
  | ⟨1, _⟩ => show win4_0.index t (1 : Fin 2) * 128 + 1 * q.val = q.val; rw [e1]; omega

theorem read_bias (c : Dev nD) (t : Fin cfg4.N) (q : Fin 128) :
    biasTile V c t (ix2 (0 : Fin 1) q) = V c main_v69 (ix2 (0 : Fin 1) q) := by
  show V c main_v69 (((cfg4.win 1).blk t).view.emb (ix2 (0 : Fin 1) q)) = _
  refine congrArg (V c main_v69) (funext fun a => Fin.ext ?_)
  obtain ⟨-, -, e2, e3, -⟩ := index_maps t
  match a with
  | ⟨0, _⟩ => show win4_1.index t (0 : Fin 2) * 1 + 1 * 0 = 0; rw [e2]
  | ⟨1, _⟩ => show win4_1.index t (1 : Fin 2) * 128 + 1 * q.val = q.val; rw [e3]; omega

theorem read_slope (c : Dev nD) (t : Fin cfg4.N) (q : Fin 128) :
    slopeTile V c t (ix2 (0 : Fin 1) q) = V c main_v70 (ix2 (0 : Fin 1) q) := by
  show V c main_v70 (((cfg4.win 2).blk t).view.emb (ix2 (0 : Fin 1) q)) = _
  refine congrArg (V c main_v70) (funext fun a => Fin.ext ?_)
  obtain ⟨-, -, -, -, e4, e5, -⟩ := index_maps t
  match a with
  | ⟨0, _⟩ => show win4_2.index t (0 : Fin 2) * 1 + 1 * 0 = 0; rw [e4]
  | ⟨1, _⟩ => show win4_2.index t (1 : Fin 2) * 128 + 1 * q.val = q.val; rw [e5]; omega

/-- Entry (p, q) of tile t of the output is entry (10000·t + p, q) of the array. -/
theorem out_index (t : Fin cfg4.N) (p : Fin 10000) (q : Fin 128) :
    ((cfg4.win 3).blk t).view.emb (ix2 p q) = ix2 ⟨t.val * 10000 + p.val, tile_row_lt t p⟩ q := by
  refine funext fun a => Fin.ext ?_
  obtain ⟨-, -, -, -, -, -, e6, e7⟩ := index_maps t
  match a with
  | ⟨0, _⟩ => show win4_3.index t (0 : Fin 2) * 10000 + 1 * p.val = t.val * 10000 + p.val; rw [e6]; omega
  | ⟨1, _⟩ => show win4_3.index t (1 : Fin 2) * 128 + 1 * q.val = q.val; rw [e7]; omega

/-- WHAT POINT t WRITES BACK is tile t of `Gcn.prelu` of the entry contents, when the two [1,128] row windows hold
    reshaped [128] rows. -/
theorem flushed_eq (c : Dev nD) (t : Fin cfg4.N) (b a : Cert.Gcn.Row)
    (hb : V c main_v69 = shapeCast S1x128 b shapeCasts_S128_S1x128)
    (ha : V c main_v70 = shapeCast S1x128 a shapeCasts_S128_S1x128) :
    (dat4 V c).flushed 3 t
      = ((cfg4.win 3).blk t).view.read (Elt Ideal) (Cert.Gcn.prelu (V c main_v68) b a) := by
  show (cfg4.win 3).cut (grid4.coords t) ((dat4 V c).after 3 t) = _
  rw [after4_3]
  unfold out4_3
  rw [View.canon_unit_zero zeros2]
  simp only [View.ld_unit_zero (S := S10000x128) zeros2, View.ld_unit_zero (S := S1x128) zeros2]
  refine funext fun (j : S10000x128.Idx) => ?_
  obtain ⟨p, q, rfl⟩ : ∃ (p : Fin 10000) (q : Fin 128), j = ix2 p q := ⟨j 0, j 1, eq_ix2 j⟩
  show k4_pay1 (nodesTile V c t) (biasTile V c t) (slopeTile V c t) (ix2 p q)
      = Cert.Gcn.prelu (V c main_v68) b a (((cfg4.win 3).blk t).view.emb (ix2 p q))
  rw [k4_pay1_eq, k1_pay1_apply, out_index, Cert.Gcn.prelu_apply, read_nodes, read_bias, read_slope, hb, ha,
    reshaped_row_apply, reshaped_row_apply]

/-- An index of the output array is in tile t iff each coordinate is in the tile's range on its axis. -/
theorem mem_tile (t : Fin cfg4.N) (i : S50000x128.Idx) :
    i ∈ ((cfg4.win 3).blk t).view.set ↔ ∀ a : Fin 2, win4_3.index t a * S10000x128.size a ≤ (i a).val ∧ (i a).val < win4_3.index t a * S10000x128.size a + S10000x128.size a := by
  show i ∈ ((View.whole main_v71).slice (win4_3.rect t)).set ↔ _
  rw [View.set_slice_whole, Rect.mem_set_unit]
  exact Iff.rfl

/-- Every row lies in some tile: row r in tile r / 10000. -/
theorem covered (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have ht : (i 0).val / 10000 < 5 := by omega
  refine ⟨⟨(i 0).val / 10000, ht⟩, flush4_3 _, ?_⟩
  rw [mem_tile]
  obtain ⟨-, -, -, -, -, -, e6, e7⟩ := index_maps ⟨(i 0).val / 10000, ht⟩
  intro a
  match a with
  | ⟨0, _⟩ =>
    show win4_3.index ⟨(i 0).val / 10000, ht⟩ (0 : Fin 2) * 10000 ≤ (i 0).val ∧ (i 0).val < win4_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win4_3.index ⟨(i 0).val / 10000, ht⟩ (1 : Fin 2) * 128 ≤ (i 1).val ∧ (i 1).val < win4_3.index ⟨(i 0).val / 10000, ht⟩ (1 : Fin 2) * 128 + 128
    rw [e7]; omega

/-- THE OUTPUT ARRAY after the region: `Gcn.prelu` of the aggregated array, the bias and the slopes it was
    entered with. -/
theorem final (c : Dev nD) (b a : Cert.Gcn.Row)
    (hb : V c main_v69 = shapeCast S1x128 b shapeCasts_S128_S1x128)
    (ha : V c main_v70 = shapeCast S1x128 a shapeCasts_S128_S1x128) :
    (dat4 V c).arrAt 3 cfg4.N = Cert.Gcn.prelu (V c main_v68) b a :=
  (dat4 V c).arrAt_eq_of_cover 3 (Cert.Gcn.prelu (V c main_v68) b a) (fun t _ => flushed_eq V c t b a hb ha) covered

end Cert.KernelIdeal.Region4

end
-- ==== Proof.KernelFold.lean ====
/-
  The kernel program's buffers from the launch to the return, read in terms of the stage functions.

  @main is seven stretches of host operations around five kernel regions. The generated frame names the buffer
  contents at every boundary (`W0` … `W12`: a host stretch applies its operations, a region replaces its output
  array by what its write-backs leave and keeps every other buffer). Here each boundary is read:
    before region 0 the shared stretch has left the sources, destinations and normalisation of the edges
    (`Gcn.src`, `Gcn.dst`, `Gcn.norm`: the same text as the reference's, compared at any float family) and a zero
    row; region 0 leaves `lin x W0 0`; the next stretch aggregates it over the edges; region 1 leaves the first
    layer's output h = `prelu` of that; region 2 leaves the skip path `lin x Ws bs`; the stretch after adds h;
    region 3 leaves `lin u W1 0`; the last stretch aggregates; region 4 leaves the result.
  A buffer that nothing in between writes is carried from boundary to boundary (`carry…`): no host operation of
  a stretch writes it, and it is none of a region's four arrays.
-/
import proofs.«120138_j45913200394643_1_alg».proof.Proof.KRun
import proofs.«120138_j45913200394643_1_alg».proof.Proof.GcnStages
import proofs.«120138_j45913200394643_1_alg».proof.Proof.Region0
import proofs.«120138_j45913200394643_1_alg».proof.Proof.Region1
import proofs.«120138_j45913200394643_1_alg».proof.Proof.Region2
import proofs.«120138_j45913200394643_1_alg».proof.Proof.Region3
import proofs.«120138_j45913200394643_1_alg».proof.Proof.Region4
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

/-! ## The host stretches, at any float family -/

section Host

variable {F : FTy → Type} [FloatOps F]
variable (m : (ℓ : Loc nD τ sig) → Buf (Elt F) ℓ) (ρ : Dev nD → PrngReg) (c : Dev nD)

/-- The zero row the kernel hands to the two linear maps that have no bias. -/
def zeroRow : (⟨S128, .f32⟩ : BufTy).Contents (Elt F) :=
  broadcastInDim S128 ![] bcast_S_S128 (constant (F := F) S_ .f32 0x00000000#32)

/-! ### Before region 0: the arguments as launched, the edges' bookkeeping, the zero row -/

theorem w3_x : V3 m ρ c main_arg0 = m ((c : Thread nD τ).loc main_arg0) := by
  show W3 m ρ c (Proc.devRef .tc main_arg0) = _
  after_results_simp <;> rfl
theorem w3_w0 : V3 m ρ c main_arg2 = m ((c : Thread nD τ).loc main_arg2) := by
  show W3 m ρ c (Proc.devRef .tc main_arg2) = _
  after_results_simp <;> rfl
theorem w3_arg0 : W3 m ρ c (Proc.devRef .tc main_arg0) = m ((c : Thread nD τ).loc main_arg0) := w3_x m ρ c
theorem w3_arg3 : W3 m ρ c (Proc.devRef .tc main_arg3) = m ((c : Thread nD τ).loc main_arg3) := by after_results_simp <;> rfl
theorem w3_arg4 : W3 m ρ c (Proc.devRef .tc main_arg4) = m ((c : Thread nD τ).loc main_arg4) := by after_results_simp <;> rfl
theorem w3_arg5 : W3 m ρ c (Proc.devRef .tc main_arg5) = m ((c : Thread nD τ).loc main_arg5) := by after_results_simp <;> rfl
theorem w3_arg6 : W3 m ρ c (Proc.devRef .tc main_arg6) = m ((c : Thread nD τ).loc main_arg6) := by after_results_simp <;> rfl
theorem w3_arg7 : W3 m ρ c (Proc.devRef .tc main_arg7) = m ((c : Thread nD τ).loc main_arg7) := by after_results_simp <;> rfl
theorem w3_arg8 : W3 m ρ c (Proc.devRef .tc main_arg8) = m ((c : Thread nD τ).loc main_arg8) := by after_results_simp <;> rfl

theorem w3_src : W3 m ρ c (Proc.devRef .tc main_v3) = Cert.Gcn.src (F := F) (m ((c : Thread nD τ).loc main_arg1)) := by
  after_results_simp <;> rfl
theorem w3_dst : W3 m ρ c (Proc.devRef .tc main_v6) = Cert.Gcn.dst (F := F) (m ((c : Thread nD τ).loc main_arg1)) := by
  after_results_simp <;> rfl
set_option maxHeartbeats 2000000 in
theorem w3_norm : W3 m ρ c (Proc.devRef .tc main_v31) = Cert.Gcn.norm (F := F) (m ((c : Thread nD τ).loc main_arg1)) := by
  after_results_simp <;> rfl
theorem w3_zero : W3 m ρ c (Proc.devRef .tc main_v32) = zeroRow (F := F) := by
  after_results_simp <;> rfl
theorem w3_zero2 : V3 m ρ c main_v33 = shapeCast S1x128 (zeroRow (F := F)) shapeCasts_S128_S1x128 := by
  show W3 m ρ c (Proc.devRef .tc main_v33) = _
  after_results_simp <;> rfl

/-! ### What each later stretch writes, and that it leaves every other reference alone -/

abbrev wr1 : List (Ref sig .tc) :=
  [main_c_8, main_v35, main_v36, main_c_9, main_v37, main_v38, main_v39, main_v40, main_v41, main_v42, main_v43, main_v44,
   main_cst_10, main_v45, main_v46, main_v47, main_v48, main_v49]
abbrev wr2 : List (Ref sig .tc) := [main_v51]
abbrev wr3 : List (Ref sig .tc) := [main_v53, main_v54]

theorem wr1_covers : (hostOps1 : List (HloOp τ sig (Elt F))).Forall fun op => op.writes ⊆ (wr1.map (Proc.devRef (τ := τ) .tc)).toFinset := by
  simp only [hostOps1, List.Forall, nullary_writes, unary_writes, binary_writes, ternary_writes, reshape_writes,
    Finset.singleton_subset_iff, List.mem_toFinset]
  repeat' apply And.intro
  all_goals exact List.mem_map_of_mem (by decide)
theorem wr2_covers : (hostOps2 : List (HloOp τ sig (Elt F))).Forall fun op => op.writes ⊆ (wr2.map (Proc.devRef (τ := τ) .tc)).toFinset := by
  simp only [hostOps2, List.Forall, reshape_writes, Finset.singleton_subset_iff, List.mem_toFinset]
  exact List.mem_map_of_mem (by decide)
theorem wr3_covers : (hostOps3 : List (HloOp τ sig (Elt F))).Forall fun op => op.writes ⊆ (wr3.map (Proc.devRef (τ := τ) .tc)).toFinset := by
  simp only [hostOps3, List.Forall, binary_writes, reshape_writes, Finset.singleton_subset_iff, List.mem_toFinset]
  repeat' apply And.intro
  all_goals exact List.mem_map_of_mem (by decide)

/-- A reference carried from region 0's exit: through the stretch after it, … -/
theorem carry5 (r : Ref sig .tc) (h1 : r ∉ wr1) : W5 m ρ c (Proc.devRef .tc r) = W4 m ρ c (Proc.devRef .tc r) :=
  after_of_writes_sub hostOps1 _ wr1_covers h1
/-- … region 1, … -/
theorem carry6 (r : Ref sig .tc) (h1 : r ∉ wr1) (g1 : ∀ w, Pipeline.arrRef spec1 w ≠ r) :
    W6 m ρ c (Proc.devRef .tc r) = W4 m ρ c (Proc.devRef .tc r) :=
  (W6_of_ne m ρ c r g1).trans (carry5 m ρ c r h1)
/-- … the stretch before region 2, … -/
theorem carry7 (r : Ref sig .tc) (h1 : r ∉ wr1) (g1 : ∀ w, Pipeline.arrRef spec1 w ≠ r) (h2 : r ∉ wr2) :
    W7 m ρ c (Proc.devRef .tc r) = W4 m ρ c (Proc.devRef .tc r) :=
  (after_of_writes_sub hostOps2 _ wr2_covers h2).trans (carry6 m ρ c r h1 g1)
/-- … region 2, … -/
theorem carry8 (r : Ref sig .tc) (h1 : r ∉ wr1) (g1 : ∀ w, Pipeline.arrRef spec1 w ≠ r) (h2 : r ∉ wr2)
    (g2 : ∀ w, Pipeline.arrRef spec2 w ≠ r) : W8 m ρ c (Proc.devRef .tc r) = W4 m ρ c (Proc.devRef .tc r) :=
  (W8_of_ne m ρ c r g2).trans (carry7 m ρ c r h1 g1 h2)
/-- … the stretch before region 3, … -/
theorem carry9 (r : Ref sig .tc) (h1 : r ∉ wr1) (g1 : ∀ w, Pipeline.arrRef spec1 w ≠ r) (h2 : r ∉ wr2)
    (g2 : ∀ w, Pipeline.arrRef spec2 w ≠ r) (h3 : r ∉ wr3) : W9 m ρ c (Proc.devRef .tc r) = W4 m ρ c (Proc.devRef .tc r) :=
  (after_of_writes_sub hostOps3 _ wr3_covers h3).trans (carry8 m ρ c r h1 g1 h2 g2)
/-- … and region 3. -/
theorem carry10 (r : Ref sig .tc) (h1 : r ∉ wr1) (g1 : ∀ w, Pipeline.arrRef spec1 w ≠ r) (h2 : r ∉ wr2)
    (g2 : ∀ w, Pipeline.arrRef spec2 w ≠ r) (h3 : r ∉ wr3) (g3 : ∀ w, Pipeline.arrRef spec3 w ≠ r) :
    W10 m ρ c (Proc.devRef .tc r) = W4 m ρ c (Proc.devRef .tc r) :=
  (W10_of_ne m ρ c r g3).trans (carry9 m ρ c r h1 g1 h2 g2 h3)

/-- The node features are region 0's first array, an input: the region leaves it as entered. -/
theorem w4_arg0 : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (w3_x m ρ c)

/-! ### The edges' bookkeeping where the two aggregations read it -/

theorem w4_src : W4 m ρ c (Proc.devRef .tc main_v3) = Cert.Gcn.src (F := F) (m ((c : Thread nD τ).loc main_arg1)) :=
  (W4_of_ne m ρ c main_v3 (by decide)).trans (w3_src m ρ c)
theorem w4_dst : W4 m ρ c (Proc.devRef .tc main_v6) = Cert.Gcn.dst (F := F) (m ((c : Thread nD τ).loc main_arg1)) :=
  (W4_of_ne m ρ c main_v6 (by decide)).trans (w3_dst m ρ c)
theorem w4_norm : W4 m ρ c (Proc.devRef .tc main_v31) = Cert.Gcn.norm (F := F) (m ((c : Thread nD τ).loc main_arg1)) :=
  (W4_of_ne m ρ c main_v31 (by decide)).trans (w3_norm m ρ c)
theorem w10_src : W10 m ρ c (Proc.devRef .tc main_v3) = Cert.Gcn.src (F := F) (m ((c : Thread nD τ).loc main_arg1)) :=
  (carry10 m ρ c main_v3 (by decide) (by decide) (by decide) (by decide) (by decide) (by decide)).trans (w4_src m ρ c)
theorem w10_dst : W10 m ρ c (Proc.devRef .tc main_v6) = Cert.Gcn.dst (F := F) (m ((c : Thread nD τ).loc main_arg1)) :=
  (carry10 m ρ c main_v6 (by decide) (by decide) (by decide) (by decide) (by decide) (by decide)).trans (w4_dst m ρ c)
theorem w10_norm : W10 m ρ c (Proc.devRef .tc main_v31) = Cert.Gcn.norm (F := F) (m ((c : Thread nD τ).loc main_arg1)) :=
  (carry10 m ρ c main_v31 (by decide) (by decide) (by decide) (by decide) (by decide) (by decide)).trans (w4_norm m ρ c)

/-! ### The arguments and the zero row where a later stretch or region reads them -/

theorem w4_arg3 : W4 m ρ c (Proc.devRef .tc main_arg3) = m ((c : Thread nD τ).loc main_arg3) :=
  (W4_of_ne m ρ c main_arg3 (by decide)).trans (w3_arg3 m ρ c)
theorem w4_arg8 : W4 m ρ c (Proc.devRef .tc main_arg8) = m ((c : Thread nD τ).loc main_arg8) :=
  (W4_of_ne m ρ c main_arg8 (by decide)).trans (w3_arg8 m ρ c)
theorem w6_arg7 : W6 m ρ c (Proc.devRef .tc main_arg7) = m ((c : Thread nD τ).loc main_arg7) :=
  (carry6 m ρ c main_arg7 (by decide) (by decide)).trans ((W4_of_ne m ρ c main_arg7 (by decide)).trans (w3_arg7 m ρ c))
theorem w7_x : V7 m ρ c main_arg0 = m ((c : Thread nD τ).loc main_arg0) :=
  (carry7 m ρ c main_arg0 (by decide) (by decide) (by decide)).trans (w4_arg0 m ρ c)
theorem w7_ws : V7 m ρ c main_arg6 = m ((c : Thread nD τ).loc main_arg6) :=
  (carry7 m ρ c main_arg6 (by decide) (by decide) (by decide)).trans ((W4_of_ne m ρ c main_arg6 (by decide)).trans (w3_arg6 m ρ c))
theorem w8_zero : W8 m ρ c (Proc.devRef .tc main_v32) = zeroRow (F := F) :=
  (carry8 m ρ c main_v32 (by decide) (by decide) (by decide) (by decide)).trans ((W4_of_ne m ρ c main_v32 (by decide)).trans (w3_zero m ρ c))
theorem w9_w1 : V9 m ρ c main_arg4 = m ((c : Thread nD τ).loc main_arg4) :=
  (carry9 m ρ c main_arg4 (by decide) (by decide) (by decide) (by decide) (by decide)).trans ((W4_of_ne m ρ c main_arg4 (by decide)).trans (w3_arg4 m ρ c))
theorem w10_arg5 : W10 m ρ c (Proc.devRef .tc main_arg5) = m ((c : Thread nD τ).loc main_arg5) :=
  (carry10 m ρ c main_arg5 (by decide) (by decide) (by decide) (by decide) (by decide) (by decide)).trans ((W4_of_ne m ρ c main_arg5 (by decide)).trans (w3_arg5 m ρ c))
theorem w10_arg8 : W10 m ρ c (Proc.devRef .tc main_arg8) = m ((c : Thread nD τ).loc main_arg8) :=
  (carry10 m ρ c main_arg8 (by decide) (by decide) (by decide) (by decide) (by decide) (by decide)).trans (w4_arg8 m ρ c)
/-- The first layer's output waits, untouched, from region 1's exit until the stretch after region 2 adds it. -/
theorem w8_h : W8 m ρ c (Proc.devRef .tc main_v50) = W6 m ρ c (Proc.devRef .tc main_v50) :=
  (W8_of_ne m ρ c main_v50 (by decide)).trans (after_of_writes_sub hostOps2 _ wr2_covers (by decide))

/-! ### What each stretch between the regions computes -/

/-- After region 0: the aggregation of its output over the edges, and the bias and the slopes reshaped to [1,128]. -/
theorem h1_agg : V5 m ρ c main_v47
    = Cert.Gcn.aggregate (F := F) (W4 m ρ c (Proc.devRef .tc main_v3)) (W4 m ρ c (Proc.devRef .tc main_v6))
        (W4 m ρ c (Proc.devRef .tc main_v31)) (W4 m ρ c (Proc.devRef .tc main_v34)) := by
  show StableHlo.after hostOps1 (W4 m ρ c) (Proc.devRef .tc main_v47) = _
  after_results_simp <;> rfl
theorem h1_bias : V5 m ρ c main_v48
    = shapeCast S1x128 (W4 m ρ c (Proc.devRef .tc main_arg3) : (⟨S128, .f32⟩ : BufTy).Contents (Elt F)) shapeCasts_S128_S1x128 := by
  show StableHlo.after hostOps1 (W4 m ρ c) (Proc.devRef .tc main_v48) = _
  after_results_simp <;> rfl
theorem h1_slope : V5 m ρ c main_v49
    = shapeCast S1x128 (W4 m ρ c (Proc.devRef .tc main_arg8) : (⟨S128, .f32⟩ : BufTy).Contents (Elt F)) shapeCasts_S128_S1x128 := by
  show StableHlo.after hostOps1 (W4 m ρ c) (Proc.devRef .tc main_v49) = _
  after_results_simp <;> rfl
/-- After region 1: the skip path's bias reshaped. -/
theorem h2_row : V7 m ρ c main_v51
    = shapeCast S1x128 (W6 m ρ c (Proc.devRef .tc main_arg7) : (⟨S128, .f32⟩ : BufTy).Contents (Elt F)) shapeCasts_S128_S1x128 := by
  show StableHlo.after hostOps2 (W6 m ρ c) (Proc.devRef .tc main_v51) = _
  after_results_simp <;> rfl
/-- After region 2: the skip path plus the first layer's output, and the zero row reshaped again. -/
theorem h3_sum : V9 m ρ c main_v53
    = addf (W8 m ρ c (Proc.devRef .tc main_v52) : (⟨S50000x128, .f32⟩ : BufTy).Contents (Elt F)) (W8 m ρ c (Proc.devRef .tc main_v50)) := by
  show StableHlo.after hostOps3 (W8 m ρ c) (Proc.devRef .tc main_v53) = _
  after_results_simp <;> rfl
theorem h3_row : V9 m ρ c main_v54
    = shapeCast S1x128 (W8 m ρ c (Proc.devRef .tc main_v32) : (⟨S128, .f32⟩ : BufTy).Contents (Elt F)) shapeCasts_S128_S1x128 := by
  show StableHlo.after hostOps3 (W8 m ρ c) (Proc.devRef .tc main_v54) = _
  after_results_simp <;> rfl
/-- After region 3: the second aggregation, and the second layer's bias and the slopes reshaped. -/
theorem h4_agg : V11 m ρ c main_v68
    = Cert.Gcn.aggregate (F := F) (W10 m ρ c (Proc.devRef .tc main_v3)) (W10 m ρ c (Proc.devRef .tc main_v6))
        (W10 m ρ c (Proc.devRef .tc main_v31)) (W10 m ρ c (Proc.devRef .tc main_v55)) := by
  show StableHlo.after hostOps4 (W10 m ρ c) (Proc.devRef .tc main_v68) = _
  after_results_simp <;> rfl
theorem h4_bias : V11 m ρ c main_v69
    = shapeCast S1x128 (W10 m ρ c (Proc.devRef .tc main_arg5) : (⟨S128, .f32⟩ : BufTy).Contents (Elt F)) shapeCasts_S128_S1x128 := by
  show StableHlo.after hostOps4 (W10 m ρ c) (Proc.devRef .tc main_v69) = _
  after_results_simp <;> rfl
theorem h4_slope : V11 m ρ c main_v70
    = shapeCast S1x128 (W10 m ρ c (Proc.devRef .tc main_arg8) : (⟨S128, .f32⟩ : BufTy).Contents (Elt F)) shapeCasts_S128_S1x128 := by
  show StableHlo.after hostOps4 (W10 m ρ c) (Proc.devRef .tc main_v70) = _
  after_results_simp <;> rfl

end Host

/-! ## The regions' outputs over the extended reals, boundary by boundary -/

section Values

variable (m : (ℓ : Loc nD τ sig) → Buf (Elt Ideal) ℓ) (ρ : Dev nD → PrngReg) (c : Dev nD)

/-- The nine arguments as launched, at the types the stage functions take. -/
abbrev xN : Cert.Gcn.Nodes := m ((c : Thread nD τ).loc main_arg0)
abbrev eL : Cert.Gcn.EdgeList := m ((c : Thread nD τ).loc main_arg1)
abbrev w0 : Cert.Gcn.Weights := m ((c : Thread nD τ).loc main_arg2)
abbrev b0 : Cert.Gcn.Row := m ((c : Thread nD τ).loc main_arg3)
abbrev w1 : Cert.Gcn.Weights := m ((c : Thread nD τ).loc main_arg4)
abbrev b1 : Cert.Gcn.Row := m ((c : Thread nD τ).loc main_arg5)
abbrev wS : Cert.Gcn.Weights := m ((c : Thread nD τ).loc main_arg6)
abbrev bS : Cert.Gcn.Row := m ((c : Thread nD τ).loc main_arg7)
abbrev aP : Cert.Gcn.Row := m ((c : Thread nD τ).loc main_arg8)
abbrev zR : Cert.Gcn.Row := zeroRow (F := Ideal)

theorem zR_zero (j : Cert.ReferenceIdeal.S128.Idx) : zR j = Ideal.ofBits .f32 0x00000000#32 := rfl

/-- Region 0 leaves the first layer's linear map. -/
theorem lin0 : W4 m ρ c (Proc.devRef .tc main_v34) = Cert.Gcn.lin (xN m c) (w0 m c) zR := by
  have h := Region0.final (V3 m ρ) c zR (w3_zero2 m ρ c)
  rw [w3_x m ρ c, w3_w0 m ρ c] at h
  exact (W4_arr m ρ c 3).trans h

/-- The stretch after it aggregates that over the edges. -/
theorem agg0 : V5 m ρ c main_v47
    = Cert.Gcn.aggregate (Cert.Gcn.src (eL m c)) (Cert.Gcn.dst (eL m c)) (Cert.Gcn.norm (eL m c)) (Cert.Gcn.lin (xN m c) (w0 m c) zR) := by
  rw [h1_agg m ρ c, w4_src m ρ c, w4_dst m ρ c, w4_norm m ρ c, lin0 m ρ c]

/-- Region 1 leaves the first layer's output. -/
theorem layer0 : W6 m ρ c (Proc.devRef .tc main_v50)
    = Cert.Gcn.prelu (Cert.Gcn.aggregate (Cert.Gcn.src (eL m c)) (Cert.Gcn.dst (eL m c)) (Cert.Gcn.norm (eL m c)) (Cert.Gcn.lin (xN m c) (w0 m c) zR))
        (b0 m c) (aP m c) := by
  have h := Region1.final (V5 m ρ) c (b0 m c) (aP m c)
    ((h1_bias m ρ c).trans (by rw [w4_arg3 m ρ c])) ((h1_slope m ρ c).trans (by rw [w4_arg8 m ρ c]))
  rw [agg0 m ρ c] at h
  exact (W6_arr m ρ c 3).trans h

/-- Region 2 leaves the skip path's linear map. -/
theorem skip : W8 m ρ c (Proc.devRef .tc main_v52) = Cert.Gcn.lin (xN m c) (wS m c) (bS m c) := by
  have h := Region2.final (V7 m ρ) c (bS m c) ((h2_row m ρ c).trans (by rw [w6_arg7 m ρ c]))
  rw [w7_x m ρ c, w7_ws m ρ c] at h
  exact (W8_arr m ρ c 3).trans h

/-- The stretch after it adds the first layer's output. -/
theorem summed : V9 m ρ c main_v53
    = addf (Cert.Gcn.lin (xN m c) (wS m c) (bS m c))
        (Cert.Gcn.prelu (Cert.Gcn.aggregate (Cert.Gcn.src (eL m c)) (Cert.Gcn.dst (eL m c)) (Cert.Gcn.norm (eL m c)) (Cert.Gcn.lin (xN m c) (w0 m c) zR))
          (b0 m c) (aP m c)) := by
  rw [h3_sum m ρ c, skip m ρ c, w8_h m ρ c, layer0 m ρ c]

/-- Region 3 leaves the second layer's linear map. -/
theorem lin1 : W10 m ρ c (Proc.devRef .tc main_v55)
    = Cert.Gcn.lin (addf (Cert.Gcn.lin (xN m c) (wS m c) (bS m c))
        (Cert.Gcn.prelu (Cert.Gcn.aggregate (Cert.Gcn.src (eL m c)) (Cert.Gcn.dst (eL m c)) (Cert.Gcn.norm (eL m c)) (Cert.Gcn.lin (xN m c) (w0 m c) zR))
          (b0 m c) (aP m c))) (w1 m c) zR := by
  have h := Region3.final (V9 m ρ) c zR ((h3_row m ρ c).trans (by rw [w8_zero m ρ c]))
  rw [summed m ρ c, w9_w1 m ρ c] at h
  exact (W10_arr m ρ c 3).trans h

/-- THE RESULT BUFFER after the run: the forward pass over the stage functions, of the arguments as launched. -/
theorem result : W12 m ρ c (Proc.devRef .tc main_v71)
    = Cert.Gcn.forward (xN m c) (eL m c) (w0 m c) (b0 m c) (w1 m c) (b1 m c) (wS m c) (bS m c) (aP m c) zR := by
  have h := Region4.final (V11 m ρ) c (b1 m c) (aP m c)
    ((h4_bias m ρ c).trans (by rw [w10_arg5 m ρ c])) ((h4_slope m ρ c).trans (by rw [w10_arg8 m ρ c]))
  rw [h4_agg m ρ c, w10_src m ρ c, w10_dst m ρ c, w10_norm m ρ c, lin1 m ρ c] at h
  exact (W12_arr m ρ c 3).trans h

/-- … which is the reference's result term of the same arguments. -/
theorem result_eq_reference : W12 m ρ c (Proc.devRef .tc main_v71)
    = Cert.ReferenceIdeal.ReadP.val_main_v84 (F := Ideal) (xN m c) (eL m c) (w0 m c) (b0 m c) (w1 m c) (b1 m c) (wS m c) (bS m c) (aP m c) :=
  (result m ρ c).trans (Cert.Gcn.ref_forward (xN m c) (eL m c) (w0 m c) (b0 m c) (w1 m c) (b1 m c) (wS m c) (bS m c) (aP m c) zR zR_zero).symm

end Values

end Cert.KernelIdeal.Fold

end
-- ==== Proof.lean ====
/-
  The certificate of a two-layer graph convolution (GCN with a skip-sum): the Pallas program against its jnp
  reference, over the extended reals.

  The program computes, for node features x [50000,128], an edge list, weights W0, W1, Ws and rows b0, b1, bs, a:
    h   = PReLU_a( A·(x W0) + b0 ),   u = (x Ws + bs) + h,   out = PReLU_a( A·(u W1) + b1 ),
  where A is the normalised adjacency with self loops (gather at the sources, scale by deg^(-1/2)·deg^(-1/2),
  scatter-add into the destinations). The kernel does the three matrix products and the two bias-and-PReLU stages
  in five tiled regions (five tiles of 10000 nodes each) and leaves the edge bookkeeping and the aggregations to
  the same host operations the reference uses. The two programs differ only in how the dense stages are laid out
  (tiles against whole arrays, a matrix product into a zero accumulator against a dot_general, conversions to
  bf16 that are the identity on the extended reals) and by two additions of zero: the kernel's linear maps add a
  zero row where the reference adds nothing, and the reference's `sum` starts from 0. x + 0 = x and 0 + x = x
  hold on all of the extended reals, so no finiteness of the inputs is used.

  Modules: GcnStages (the stage functions `lin`, `prelu`, `aggregate`, `forward`, and that the reference's result
  is `forward`), TileValues (one tile of each body, entry by entry), Region0 … Region4 (each region's output array
  as a stage function of its entry contents), KernelFold (the kernel program's buffers boundary by boundary, down
  to the result = `forward`), KRun (the kernel program's run with its result buffer named), RefRun / RefRead (the
  reference's run and its stages).
-/
import proofs.«120138_j45913200394643_1_alg».proof.Defs
import proofs.«120138_j45913200394643_1_alg».proof.Proof.Gen.Kernel
import proofs.«120138_j45913200394643_1_alg».proof.Proof.Gen.Kernel.Skeleton
import proofs.«120138_j45913200394643_1_alg».proof.Proof.Gen.Kernel.Launch
import proofs.«120138_j45913200394643_1_alg».proof.Proof.Gen.Kernel.Points
import proofs.«120138_j45913200394643_1_alg».proof.Proof.Gen.Kernel.Frame
import proofs.«120138_j45913200394643_1_alg».proof.Proof.Gen.KernelIdeal
import proofs.«120138_j45913200394643_1_alg».proof.Proof.Gen.KernelIdeal.Skeleton
import proofs.«120138_j45913200394643_1_alg».proof.Proof.Gen.KernelIdeal.Launch
import proofs.«120138_j45913200394643_1_alg».proof.Proof.Gen.KernelIdeal.Points
import proofs.«120138_j45913200394643_1_alg».proof.Proof.Gen.KernelIdeal.Frame
import proofs.«120138_j45913200394643_1_alg».proof.Proof.Gen.ReferenceIdeal
import proofs.«120138_j45913200394643_1_alg».proof.Proof.Gen.Pre_finite_inputs
import proofs.«120138_j45913200394643_1_alg».proof.Proof.RefRead
import proofs.«120138_j45913200394643_1_alg».proof.Proof.KRun
import proofs.«120138_j45913200394643_1_alg».proof.Proof.KernelFold
import Idealize.ShloMosaic.Adequacy
import Idealize.ShloMosaic.Init

noncomputable section

namespace Cert.Proof

open Idealize.ShloMosaic Idealize.ShloMosaic.TcCoe Idealize.SL.Sem

/-- Every fair run of the kernel program ends, nothing faulting, the arguments as launched. -/
theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote nothing: there is nothing to preserve. -/
theorem preserves : Cert.preserves_Kernel_KernelIdeal := trivial

/-- From memories agreeing on the nine arguments both programs end with the same result array: the kernel's result
    buffer holds the forward pass over the stage functions of its arguments (`Fold.result`), and so does the
    reference's (`Gcn.ref_forward`). -/
theorem algebraic : Cert.algebraic_KernelIdeal_ReferenceIdeal := by
  intro m ρ m' ρ' _ hagree
  refine ⟨fun c => Cert.KernelIdeal.Gen.W12 m ρ c (Proc.devRef .tc Cert.KernelIdeal.main_v71),
    Cert.KernelIdeal.GenP.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  rw [Cert.ReferenceIdeal.ReadP.val_main_v84_eq, e0, e1, e2, e3, e4, e5, e6, e7, e8]
  exact (Cert.KernelIdeal.Fold.result_eq_reference m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
